-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S4000x64 : Shape := ⟨2, ![4000, 64]⟩
abbrev S4000x128 : Shape := ⟨2, ![4000, 128]⟩
abbrev S1x128 : Shape := ⟨2, ![1, 128]⟩
abbrev S1x64 : Shape := ⟨2, ![1, 64]⟩

abbrev nBuf : Space → Nat
  | .hbm => 32
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S800000x64, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S4000x64, .f32⟩
  | .local _ .vmem, ⟨9, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  gather_S50000x64_S800000x1_S800000x64_1_0_n_n_0_1_164_wf : GatherDims.WF S50000x64 S800000x1 S800000x64 [1] [0] [] [0] [] 1 ![1, 64]
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S800000x64.size a
  hwx0_7 : ∀ i : grid0.Coords, EltTy.bits .f32 = 32 ∨ (Rect.block (s := S800000x64) S4000x64.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v18) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .i1⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x64, .f32⟩
  | .hbm, ⟨54, _⟩ => ⟨S1x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S800000x64, .f32⟩
  | .hbm, ⟨59, _⟩ => ⟨S800000x64, .i1⟩
  | .hbm, ⟨60, _⟩ => ⟨S_, .f32⟩
  | .hbm, ⟨61, _⟩ => ⟨S800000x64, .f32⟩
  | .hbm, ⟨62, _⟩ => ⟨S800000x64, .f32⟩
  | .hbm, ⟨63, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  gather_S50000x64_S800000x1_S800000x64_1_0_n_n_0_1_164_wf : GatherDims.WF S50000x64 S800000x1 S800000x64 [1] [0] [] [0] [] 1 ![1, 64]
  dot_S800000x64_S64x128_S800000x128_1_0_0_1_n_n_wf : DotDims.WF S800000x64 S64x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.LibDenseLayer.lean ====
/-
  One dense layer with a leaky rectifier, read at an index of the extended reals.

  For a row h of length K, a K × N matrix W and a bias b of length N the layer's entry q is
      leaky (Σ_k h(k) · W(k, q) + b(q)),      leaky z = z if 0 ≤ z, else slope · z,
  the threshold and the slope being the values two float words denote. The host writes the layer as a
  `dot_general`, the bias laid along the rows by two `broadcast_in_dim`s, a compare against a splat zero, a product
  with a splat slope and a select; a kernel writes it as a `tpu.matmul` of operands narrowed to bf16 into a zero
  accumulator, the bias recast as one row and broadcast, and the same compare, product and select against scalar
  splats. At the extended reals a change of format is the identity and both products are the same finite sum,
  so at output index (p, q) both forms are the layer's entry q of the input's row p. Sizes are generic.
-/
import Idealize.ShloMosaic.PureOps.Ideal.Laws
import Idealize.ShloMosaic.Lib.ValueIdx
import Idealize.ShloMosaic.Lib.Pipeline.Value
import proofs.«144251_j32504312496840_1_alg».proof.Proof.LibPlainDot

noncomputable section

namespace Cert.LibDenseLayer

open Idealize.ShloMosaic Idealize.ShloMosaic.ValueIdx

variable {M K N : Nat}

/-- The leaky rectifier on the extended reals: the identity where `0 ≤ z`, the slope's multiple elsewhere; zero and
    slope are what the float words denote. -/
def leaky (slope : BitVec 32) (z : EReal) : EReal :=
  Scalar.select (Ideal.cmp .oge z (Ideal.ofBits .f32 0x00000000#32)) z (Ideal.ofBits .f32 slope * z)

/-- One layer on a row: entry `q` is the rectifier of the row's product with column `q` plus the bias at `q`. -/
def denseRow (slope : BitVec 32) (h : Fin K → EReal) (W : (⟨2, ![K, N]⟩ : Shape).Idx → EReal)
    (b : (⟨1, ![N]⟩ : Shape).Idx → EReal) (q : Fin N) : EReal :=
  leaky slope ((∑ k : Fin K, h k * W (ix2 k q)) + b (ix1 q))

/-- A scalar laid over a whole shape by `broadcast_in_dim` with no dimensions reads the scalar everywhere. -/
theorem scalarBroadcastInDim_apply {α : Type} {s : Shape} (h0 : (⟨0, ![]⟩ : Shape).BroadcastsInDim s ![])
    (y : (⟨0, ![]⟩ : Shape).Idx → α) (j : s.Idx) : broadcastInDim s ![] h0 y j = y ix0 :=
  broadcastInDim_apply ![] h0 y j ix0 (fun a => a.elim0)

/-! ## The host's form -/

/-- The host's pre-activation: the product plus the bias laid along the rows. -/
def hostPre (prec : Option ContractPrecision) (h : FVec Ideal ⟨2, ![M, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) : FVec Ideal ⟨2, ![M, N]⟩ .f32 :=
  addf (Host.dotGeneral (DotDims.plain M K N) prec h W)
    (broadcastInDim ⟨2, ![M, N]⟩ ![0, 1] h2 (broadcastInDim ⟨2, ![1, N]⟩ ![1] h1 b))

/-- The host's layer: select, on `pre ≥ 0`, between the pre-activation and its product with the slope. -/
def hostDense (slope : BitVec 32) (prec : Option ContractPrecision) (h : FVec Ideal ⟨2, ![M, K]⟩ .f32)
    (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) : FVec Ideal ⟨2, ![M, N]⟩ .f32 :=
  select
    (cmpf .oge (hostPre prec h W b h1 h2) (broadcastInDim ⟨2, ![M, N]⟩ ![] h0 (constant (F := Ideal) ⟨0, ![]⟩ .f32 0x00000000#32)))
    (hostPre prec h W b h1 h2)
    (mulf (broadcastInDim ⟨2, ![M, N]⟩ ![] h0 (constant (F := Ideal) ⟨0, ![]⟩ .f32 slope)) (hostPre prec h W b h1 h2))

/-- The host's pre-activation at (p, q): row p's product with column q, plus the bias at q. -/
theorem hostPre_apply (prec : Option ContractPrecision) (h : FVec Ideal ⟨2, ![M, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    hostPre prec h W b h1 h2 (ix2 p q) = (∑ k : Fin K, h (ix2 p k) * W (ix2 k q)) + b (ix1 q) := by
  unfold hostPre
  rw [addf_apply, LibPlainDot.rowBroadcastInDim_apply b h1 h2 p q]
  exact congrArg (· + b (ix1 q)) (LibPlainDot.dotGeneral_plain prec .single h W (ix2 p q))

/-- The host's layer at (p, q) is the layer's entry q of the input's row p. -/
theorem hostDense_apply (slope : BitVec 32) (prec : Option ContractPrecision) (h : FVec Ideal ⟨2, ![M, K]⟩ .f32)
    (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    hostDense slope prec h W b h1 h2 h0 (ix2 p q) = denseRow slope (fun k => h (ix2 p k)) W b q := by
  unfold hostDense denseRow leaky
  rw [select_apply, cmpf_apply, mulf_apply, hostPre_apply, scalarBroadcastInDim_apply, scalarBroadcastInDim_apply]
  rfl

/-- Row p of the host's layer, as a function of the column. -/
theorem hostDense_row (slope : BitVec 32) (prec : Option ContractPrecision) (h : FVec Ideal ⟨2, ![M, K]⟩ .f32)
    (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) :
    (fun q => hostDense slope prec h W b h1 h2 h0 (ix2 p q)) = denseRow slope (fun k => h (ix2 p k)) W b :=
  funext fun q => hostDense_apply slope prec h W b h1 h2 h0 p q

/-! ## A kernel's form -/

/-- A kernel's pre-activation: the product of the operands narrowed to bf16, into a zero accumulator, plus the bias
    recast as one row and broadcast down the rows. -/
def kernelPre (prec : Option ContractPrecision) (h : FVec Ideal ⟨2, ![M, K]⟩ .f32) (W : FVec Ideal ⟨2, ![K, N]⟩ .f32)
    (b : FVec Ideal ⟨1, ![N]⟩ .f32) (hb : FTy.bits .bf16 < FTy.bits .f32)
    (hs1 : (⟨1, ![N]⟩ : Shape).ShapeCasts ⟨2, ![1, N]⟩) (hs2 : (⟨2, ![1, N]⟩ : Shape).Broadcasts ⟨2, ![M, N]⟩) :
    FVec Ideal ⟨2, ![M, N]⟩ .f32 :=
  addf (matmul (DotDims.plain M K N) prec (truncf .bf16 h hb) (truncf .bf16 W hb) (constant ⟨2, ![M, N]⟩ .f32 0x00000000#32))
    (broadcastTo ⟨2, ![M, N]⟩ (shapeCast ⟨2, ![1, N]⟩ b hs1) hs2)

/-- A kernel's layer: the same select against scalar splats. -/
def kernelDense (slope : BitVec 32) (prec : Option ContractPrecision) (h : FVec Ideal ⟨2, ![M, K]⟩ .f32)
    (W : FVec Ideal ⟨2, ![K, N]⟩ .f32) (b : FVec Ideal ⟨1, ![N]⟩ .f32) (hb : FTy.bits .bf16 < FTy.bits .f32)
    (hs1 : (⟨1, ![N]⟩ : Shape).ShapeCasts ⟨2, ![1, N]⟩) (hs2 : (⟨2, ![1, N]⟩ : Shape).Broadcasts ⟨2, ![M, N]⟩) :
    FVec Ideal ⟨2, ![M, N]⟩ .f32 :=
  select
    (cmpf .oge (kernelPre prec h W b hb hs1 hs2) (broadcast ⟨2, ![M, N]⟩ (Scalar.ofBits (F := Ideal) .f32 0x00000000#32)))
    (kernelPre prec h W b hb hs1 hs2)
    (mulf (broadcast ⟨2, ![M, N]⟩ (Scalar.ofBits (F := Ideal) .f32 slope)) (kernelPre prec h W b hb hs1 hs2))

/-- A kernel's pre-activation at (p, q): the narrowing is the identity, the product the same sum. -/
theorem kernelPre_apply (prec : Option ContractPrecision) (h : FVec Ideal ⟨2, ![M, K]⟩ .f32) (W : FVec Ideal ⟨2, ![K, N]⟩ .f32)
    (b : FVec Ideal ⟨1, ![N]⟩ .f32) (hb : FTy.bits .bf16 < FTy.bits .f32)
    (hs1 : (⟨1, ![N]⟩ : Shape).ShapeCasts ⟨2, ![1, N]⟩) (hs2 : (⟨2, ![1, N]⟩ : Shape).Broadcasts ⟨2, ![M, N]⟩)
    (p : Fin M) (q : Fin N) :
    kernelPre prec h W b hb hs1 hs2 (ix2 p q) = (∑ k : Fin K, h (ix2 p k) * W (ix2 k q)) + b (ix1 q) := by
  unfold kernelPre
  rw [addf_apply, LibPlainDot.rowBroadcastTo_apply b hs1 hs2 p q]
  exact congrArg (· + b (ix1 q)) (LibPlainDot.matmul_plain_zero prec (truncf .bf16 h hb) (truncf .bf16 W hb) (ix2 p q))

/-- A kernel's layer at (p, q) is the layer's entry q of the input's row p. -/
theorem kernelDense_apply (slope : BitVec 32) (prec : Option ContractPrecision) (h : FVec Ideal ⟨2, ![M, K]⟩ .f32)
    (W : FVec Ideal ⟨2, ![K, N]⟩ .f32) (b : FVec Ideal ⟨1, ![N]⟩ .f32) (hb : FTy.bits .bf16 < FTy.bits .f32)
    (hs1 : (⟨1, ![N]⟩ : Shape).ShapeCasts ⟨2, ![1, N]⟩) (hs2 : (⟨2, ![1, N]⟩ : Shape).Broadcasts ⟨2, ![M, N]⟩)
    (p : Fin M) (q : Fin N) :
    kernelDense slope prec h W b hb hs1 hs2 (ix2 p q) = denseRow slope (fun k => h (ix2 p k)) W b q := by
  unfold kernelDense denseRow leaky
  rw [select_apply, cmpf_apply, mulf_apply, kernelPre_apply]
  rfl

/-- Row p of a kernel's layer, as a function of the column. -/
theorem kernelDense_row (slope : BitVec 32) (prec : Option ContractPrecision) (h : FVec Ideal ⟨2, ![M, K]⟩ .f32)
    (W : FVec Ideal ⟨2, ![K, N]⟩ .f32) (b : FVec Ideal ⟨1, ![N]⟩ .f32) (hb : FTy.bits .bf16 < FTy.bits .f32)
    (hs1 : (⟨1, ![N]⟩ : Shape).ShapeCasts ⟨2, ![1, N]⟩) (hs2 : (⟨2, ![1, N]⟩ : Shape).Broadcasts ⟨2, ![M, N]⟩)
    (p : Fin M) :
    (fun q => kernelDense slope prec h W b hb hs1 hs2 (ix2 p q)) = denseRow slope (fun k => h (ix2 p k)) W b :=
  funext fun q => kernelDense_apply slope prec h W b hb hs1 hs2 p q

end Cert.LibDenseLayer

end
-- ==== Proof.Net.lean ====
/-
  The edge network as one function, index by index.

  Each edge's feature row r (64 numbers) goes through three dense layers with a leaky rectifier of slope 0.05
  (the value of the float word 0x3D4CCCCD):
      r ↦ L(W2, b2) (L(W1, b1) (L(W0, b0) r)),     L(W, b) h = q ↦ leaky (Σ_k h(k) · W(k, q) + b(q)),
  64 → 128 → 128 → 64. The result array for E edges holds, at (i, q), entry q of that image of row i of the edge
  features. Three host layers stacked, and three kernel layers stacked, both read at (i, q) as exactly this: a layer's
  row depends on the previous layer's same row only, so the number of rows E plays no part (a block of 4000 rows and
  the whole array of 800000 rows are read by the same lemma).
-/
import proofs.«144251_j32504312496840_1_alg».proof.Proof.LibDenseLayer

noncomputable section

namespace Cert.EdgeNet

open Idealize.ShloMosaic Idealize.ShloMosaic.ValueIdx Cert.LibDenseLayer

/-- The rectifier's slope: the float word of 0.05 both programs spell. -/
abbrev slope : BitVec 32 := 0x3D4CCCCD#32

/-- The three layers on one row of edge features. -/
def netRow (r : Fin 64 → EReal)
    (W0 : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) : Fin 64 → EReal :=
  denseRow slope (denseRow slope (denseRow slope r W0 b0) W1 b1) W2 b2

/-- The network over `E` rows: at (i, q), entry q of the image of row i. -/
def net {E : Nat} (e : (⟨2, ![E, 64]⟩ : Shape).Idx → EReal)
    (W0 : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![E, 64]⟩ : Shape).Idx → EReal :=
  fun j => netRow (fun k => e (ix2 (j 0) k)) W0 b0 W1 b1 W2 b2 (j 1)

variable {E : Nat}

/-- Three host layers stacked are the network. -/
theorem host3_eq (e : FVec Ideal ⟨2, ![E, 64]⟩ .f32)
    (W0 : FVec Ideal ⟨2, ![64, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32)
    (h1 : (⟨1, ![128]⟩ : Shape).BroadcastsInDim ⟨2, ![1, 128]⟩ ![1])
    (h2 : (⟨2, ![1, 128]⟩ : Shape).BroadcastsInDim ⟨2, ![E, 128]⟩ ![0, 1])
    (h0 : (⟨0, ![]⟩ : Shape).BroadcastsInDim ⟨2, ![E, 128]⟩ ![])
    (g1 : (⟨1, ![64]⟩ : Shape).BroadcastsInDim ⟨2, ![1, 64]⟩ ![1])
    (g2 : (⟨2, ![1, 64]⟩ : Shape).BroadcastsInDim ⟨2, ![E, 64]⟩ ![0, 1])
    (g0 : (⟨0, ![]⟩ : Shape).BroadcastsInDim ⟨2, ![E, 64]⟩ ![]) :
    hostDense slope none (hostDense slope none (hostDense slope none e W0 b0 h1 h2 h0) W1 b1 h1 h2 h0) W2 b2 g1 g2 g0
      = net e W0 b0 W1 b1 W2 b2 := by
  funext j
  obtain ⟨p, q, rfl⟩ : ∃ (p : Fin E) (q : Fin 64), j = ix2 p q := ⟨j 0, j 1, eq_ix2 j⟩
  rw [hostDense_apply]
  show _ = denseRow slope (denseRow slope (denseRow slope (fun k => e (ix2 p k)) W0 b0) W1 b1) W2 b2 q
  refine congrArg (fun r => denseRow slope r W2 b2 q) ?_
  exact (hostDense_row slope none _ W1 b1 h1 h2 h0 p).trans
    (congrArg (fun r => denseRow slope r W1 b1) (hostDense_row slope none e W0 b0 h1 h2 h0 p))

/-- Three kernel layers stacked are the network. -/
theorem kernel3_eq (e : FVec Ideal ⟨2, ![E, 64]⟩ .f32)
    (W0 : FVec Ideal ⟨2, ![64, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32)
    (hb : FTy.bits .bf16 < FTy.bits .f32)
    (s1 : (⟨1, ![128]⟩ : Shape).ShapeCasts ⟨2, ![1, 128]⟩) (s2 : (⟨2, ![1, 128]⟩ : Shape).Broadcasts ⟨2, ![E, 128]⟩)
    (u1 : (⟨1, ![64]⟩ : Shape).ShapeCasts ⟨2, ![1, 64]⟩) (u2 : (⟨2, ![1, 64]⟩ : Shape).Broadcasts ⟨2, ![E, 64]⟩) :
    kernelDense slope none (kernelDense slope none (kernelDense slope none e W0 b0 hb s1 s2) W1 b1 hb s1 s2) W2 b2 hb u1 u2
      = net e W0 b0 W1 b1 W2 b2 := by
  funext j
  obtain ⟨p, q, rfl⟩ : ∃ (p : Fin E) (q : Fin 64), j = ix2 p q := ⟨j 0, j 1, eq_ix2 j⟩
  rw [kernelDense_apply]
  show _ = denseRow slope (denseRow slope (denseRow slope (fun k => e (ix2 p k)) W0 b0) W1 b1) W2 b2 q
  refine congrArg (fun r => denseRow slope r W2 b2 q) ?_
  exact (kernelDense_row slope none _ W1 b1 hb s1 s2 p).trans
    (congrArg (fun r => denseRow slope r W1 b1) (kernelDense_row slope none e W0 b0 hb s1 s2 p))

/-- The network's value at a row depends on that row of the edge features only: two feature arrays (of any heights)
    that agree on a pair of rows give the same entries there. -/
theorem net_congr_row {E' : Nat} (e : (⟨2, ![E, 64]⟩ : Shape).Idx → EReal) (e' : (⟨2, ![E', 64]⟩ : Shape).Idx → EReal)
    (W0 : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (p : Fin E) (p' : Fin E') (q : Fin 64) (hrow : ∀ k : Fin 64, e (ix2 p k) = e' (ix2 p' k)) :
    net e W0 b0 W1 b1 W2 b2 (ix2 p q) = net e' W0 b0 W1 b1 W2 b2 (ix2 p' q) := by
  show netRow (fun k => e (ix2 p k)) W0 b0 W1 b1 W2 b2 q = netRow (fun k => e' (ix2 p' k)) W0 b0 W1 b1 W2 b2 q
  rw [show (fun k => e (ix2 p k)) = fun k => e' (ix2 p' k) from funext hrow]

end Cert.EdgeNet

end
-- ==== Proof.KernelValue.lean ====
/-
  The kernel's result array is the edge network of the staged edge features.

  The one region runs 200 grid points; point t stages rows 4000·t … 4000·t + 3999 of the edge features and the six
  parameter arrays whole, and its body is three kernel layers stacked, stored whole. A layer's row depends on the
  previous layer's same row only, so the block point t writes back is block t of the network of the whole
  edge-feature array; the 200 blocks cover the result array (row r lies in block r / 4000).
-/
import proofs.«144251_j32504312496840_1_alg».proof.Proof.Gen.KernelIdeal.Value
import proofs.«144251_j32504312496840_1_alg».proof.Proof.Net

noncomputable section

namespace Cert.KernelIdeal.BlockValue

open Cert.KernelIdeal Cert.KernelIdeal.Gen
open Idealize.ShloMosaic Idealize.ShloMosaic.ValueIdx Idealize.ShloMosaic.TcCoe Idealize.SL.Sem
open Idealize.ShloMosaic.Pipeline (Dat)
open Cert.EdgeNet Cert.LibDenseLayer

/-! ## The body's stored value -/

/-- The stored value is three kernel layers over the loaded blocks, hence the network of the edge block. -/
theorem payload_eq (x0 : Vec Ideal S4000x64 .f32) (x1 : Vec Ideal S64x128 .f32) (x2 : Vec Ideal S128 .f32) (x3 : Vec Ideal S128x128 .f32)
    (x4 : Vec Ideal S128 .f32) (x5 : Vec Ideal S128x64 .f32) (x6 : Vec Ideal S64 .f32) :
    k0_pay1 (k0_pay2 x0 x1 x2 x3 x4 x5 x6) (k0_pay3 x0 x1 x2 x3 x4 x5 x6) (k0_pay4 (F := Ideal))
      = net (E := 4000) x0 x1 x2 x3 x4 x5 x6 := by
  have h : k0_pay1 (k0_pay2 x0 x1 x2 x3 x4 x5 x6) (k0_pay3 x0 x1 x2 x3 x4 x5 x6) (k0_pay4 (F := Ideal))
      = kernelDense slope none
          (kernelDense slope none
            (kernelDense slope none (shapeCast S4000x64 x0 shapeCasts_S4000x64_S4000x64) x1 x2 bitsLt_bf16_f32 shapeCasts_S128_S1x128 broadcasts_S1x128_S4000x128)
            x3 x4 bitsLt_bf16_f32 shapeCasts_S128_S1x128 broadcasts_S1x128_S4000x128)
          x5 x6 bitsLt_bf16_f32 shapeCasts_S64_S1x64 broadcasts_S1x64_S4000x64 := rfl
  rw [h, shapeCast_self]
  exact kernel3_eq x0 x1 x2 x3 x4 x5 x6 _ _ _ _ _

variable (m : (ℓ : Loc nD τ sig) → Buf (Elt Ideal) ℓ) (ρ : Dev nD → PrngReg)

/-! ## The blocks -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the edge window and the result window sit at block (t, 0); every parameter
    window at block zero. -/
theorem idx_facts : ∀ t : Fin cfg0.N,
      win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- A parameter window's block is its whole array. -/
theorem wblk1 (c : Dev nD) (t : Fin cfg0.N) : (iblk m c 1 t : Vec Ideal S64x128 .f32) = V m c main_arg2 := by
  obtain ⟨-, -, -, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

theorem wblk2 (c : Dev nD) (t : Fin cfg0.N) : (iblk m c 2 t : Vec Ideal S128 .f32) = V m c main_arg3 := by
  obtain ⟨-, -, -, -, -, -, e0, -⟩ := idx_facts t
  funext y
  show V m c main_arg3 (((cfg0.win 2).blk t).view.emb y) = V m c main_arg3 y
  refine congrArg _ (funext fun a => Fin.ext ?_)
  match a with
  | ⟨0, _⟩ => show win0_2.index t (0 : Fin 1) * 128 + 1 * (y 0).val = (y 0).val; omega

theorem wblk3 (c : Dev nD) (t : Fin cfg0.N) : (iblk m c 3 t : Vec Ideal S128x128 .f32) = V m c main_arg4 := by
  obtain ⟨-, -, -, -, -, -, -, e0, e1, -⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem wblk4 (c : Dev nD) (t : Fin cfg0.N) : (iblk m c 4 t : Vec Ideal S128 .f32) = V m c main_arg5 := by
  obtain ⟨-, -, -, -, -, -, -, -, -, e0, -⟩ := idx_facts t
  funext y
  show V m c main_arg5 (((cfg0.win 4).blk t).view.emb y) = V m c main_arg5 y
  refine congrArg _ (funext fun a => Fin.ext ?_)
  match a with
  | ⟨0, _⟩ => show win0_4.index t (0 : Fin 1) * 128 + 1 * (y 0).val = (y 0).val; omega

theorem wblk5 (c : Dev nD) (t : Fin cfg0.N) : (iblk m c 5 t : Vec Ideal S128x64 .f32) = V m c main_arg6 := by
  obtain ⟨-, -, -, -, -, -, -, -, -, -, e0, e1, -⟩ := idx_facts t
  funext y
  show V m c main_arg6 (((cfg0.win 5).blk t).view.emb y) = V m c main_arg6 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem wblk6 (c : Dev nD) (t : Fin cfg0.N) : (iblk m c 6 t : Vec Ideal S64 .f32) = V m c main_arg7 := by
  obtain ⟨-, -, -, -, -, -, -, -, -, -, -, -, e0⟩ := idx_facts t
  funext y
  show V m c main_arg7 (((cfg0.win 6).blk t).view.emb y) = V m c main_arg7 y
  refine congrArg _ (funext fun a => Fin.ext ?_)
  match a with
  | ⟨0, _⟩ => show win0_6.index t (0 : Fin 1) * 64 + 1 * (y 0).val = (y 0).val; omega

/-- Row p of the edge block at point t is the row of the staged array that the result block's row p lands on. -/
theorem erow (c : Dev nD) (t : Fin cfg0.N) (p : Fin 4000) (q k : Fin 64) :
    (iblk m c 0 t : Vec Ideal S4000x64 .f32) (ix2 p k)
      = (V m c main_v18 : FVec Ideal S800000x64 .f32) (ix2 ((((cfg0.win 7).blk t).view.emb (ix2 p q) : S800000x64.Idx) 0) k) := by
  obtain ⟨e0, e1, e2, e3, -⟩ := idx_facts t
  show V m c main_v18 (((cfg0.win 0).blk t).view.emb (ix2 p k)) = _
  refine congrArg _ (funext fun a => Fin.ext ?_)
  match a with
  | ⟨0, _⟩ => show win0_0.index t (0 : Fin 2) * 4000 + 1 * p.val = win0_7.index t (0 : Fin 2) * 4000 + 1 * p.val; omega
  | ⟨1, _⟩ => show win0_0.index t (1 : Fin 2) * 64 + 1 * k.val = k.val; omega

/-- The result block's column q lands on column q. -/
theorem ocol (t : Fin cfg0.N) (p : Fin 4000) (q : Fin 64) :
    (((cfg0.win 7).blk t).view.emb (ix2 p q) : S800000x64.Idx) 1 = q := by
  obtain ⟨-, -, -, e3, -⟩ := idx_facts t
  refine Fin.ext ?_
  show win0_7.index t (1 : Fin 2) * 64 + 1 * q.val = q.val
  omega

/-- The leading part of an uncut block is the block: the block index of (p, q) is (p, q). -/
theorem xinj_ix2 (t : Fin cfg0.N) (p : Fin 4000) (q : Fin 64) :
    (cfg0.win 7).xinj (grid0.coords t) (ix2 p q) = ix2 p q :=
  funext fun a => match a with
    | ⟨0, _⟩ => rfl
    | ⟨1, _⟩ => rfl

/-- What a point writes back of a block's contents X, at (p, q), is X there (the block is uncut). -/
theorem cut_at (t : Fin cfg0.N) (X : S4000x64.Idx → EReal) (p : Fin 4000) (q : Fin 64) :
    (cfg0.win 7).cut (grid0.coords t) X (ix2 p q) = X (ix2 p q) :=
  congrArg X (xinj_ix2 t p q)

/-- Block t of an array G, read through the result window at y, is G at the array index y lands on. -/
theorem read_at (t : Fin cfg0.N) (G : S800000x64.Idx → EReal) (y : S4000x64.Idx) :
    ((cfg0.win 7).blk t).view.read (Elt Ideal) G y = G (((cfg0.win 7).blk t).view.emb y) := rfl

-- From here on the network is used as one opaque function of its arrays: nothing below opens it.
attribute [local irreducible] Cert.EdgeNet.net

/-- At (p, q) of point t's block: the network of the blocks is the network of the staged arrays at the array index
    the block's (p, q) lands on. -/
theorem point_eq (c : Dev nD) (t : Fin cfg0.N) (p : Fin 4000) (q : Fin 64) :
    net (E := 4000) (iblk m c 0 t) (iblk m c 1 t) (iblk m c 2 t) (iblk m c 3 t) (iblk m c 4 t) (iblk m c 5 t) (iblk m c 6 t) (ix2 p q)
      = net (E := 800000) (V m c main_v18) (V m c main_arg2) (V m c main_arg3) (V m c main_arg4) (V m c main_arg5) (V m c main_arg6) (V m c main_arg7)
          (((cfg0.win 7).blk t).view.emb (ix2 p q)) := by
  rw [wblk1, wblk2, wblk3, wblk4, wblk5, wblk6, eq_ix2 (((cfg0.win 7).blk t).view.emb (ix2 p q) : S800000x64.Idx), ocol t p q]
  exact net_congr_row _ _ _ _ _ _ _ _ p _ q (fun k => erow m c t p q k)

/-- WHAT POINT t WRITES BACK is block t of the network of the staged edge features and the parameters. -/
theorem flushed_eq (c : Dev nD) (t : Fin cfg0.N) :
    (dats m 0 c).flushed 7 t = ((cfg0.win 7).blk t).view.read (Elt Ideal)
      (net (E := 800000) (V m c main_v18) (V m c main_arg2) (V m c main_arg3) (V m c main_arg4) (V m c main_arg5) (V m c main_arg6) (V m c main_arg7)) := by
  rw [Value.flushed7]
  unfold out0_7
  rw [View.canon_unit_zero zero2]
  simp only [View.ld_unit_zero (S := S4000x64) zero2, View.ld_unit_zero (S := S64x128) zero2, View.ld_unit_zero (S := S128) zero1,
    View.ld_unit_zero (S := S128x128) zero2, View.ld_unit_zero (S := S128x64) zero2, View.ld_unit_zero (S := S64) zero1]
  rw [payload_eq]
  funext j
  obtain ⟨p, q, rfl⟩ : ∃ (p : Fin 4000) (q : Fin 64), j = ix2 p q := ⟨j 0, j 1, eq_ix2 j⟩
  exact (cut_at t _ p q).trans ((point_eq m c t p q).trans (read_at t _ (ix2 p q)).symm)

/-! ## The cover, and the run -/

/-- An index of the result array is in point t's block iff each coordinate is in the block's range on its axis. -/
theorem mem_blk (t : Fin cfg0.N) (i : S800000x64.Idx) :
    i ∈ ((cfg0.win 7).blk t).view.set ↔ ∀ a : Fin 2, win0_7.index t a * S4000x64.size a ≤ (i a).val ∧ (i a).val < win0_7.index t a * S4000x64.size a + S4000x64.size a := by
  show i ∈ ((View.whole main_v19).slice (win0_7.rect t)).set ↔ _
  rw [View.set_slice_whole, Rect.mem_set_unit]
  exact Iff.rfl

/-- Every index of the result array is in some point's block: row r in the block of point r / 4000. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  have hN : cfg0.N = 200 := N_0
  have ht : (i 0).val / 4000 < cfg0.N := by rw [hN]; omega
  obtain ⟨-, -, e2, e3, -⟩ := idx_facts ⟨(i 0).val / 4000, ht⟩
  refine ⟨⟨(i 0).val / 4000, ht⟩, flush0_7 _, ?_⟩
  rw [mem_blk]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [e2]
    show (i 0).val / 4000 * 4000 ≤ (i 0).val ∧ (i 0).val < (i 0).val / 4000 * 4000 + 4000
    omega
  | ⟨1, _⟩ =>
    show win0_7.index ⟨(i 0).val / 4000, ht⟩ (1 : Fin 2) * 64 ≤ (i 1).val ∧ (i 1).val < win0_7.index ⟨(i 0).val / 4000, ht⟩ (1 : Fin 2) * 64 + 64
    rw [e3]
    omega

/-- THE RESULT ARRAY after the run is the network of the staged edge features and the parameters as launched. -/
theorem final (c : Dev nD) :
    (dats m 0 c).arrAt 7 cfg0.N
      = net (E := 800000) (V m c main_v18) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  rw [← V_main_arg2 m c, ← V_main_arg3 m c, ← V_main_arg4 m c, ← V_main_arg5 m c, ← V_main_arg6 m c, ← V_main_arg7 m c]
  exact (dats m 0 c).arrAt_eq_of_cover 7 _ (fun t _ => flushed_eq m c t) cover

/-- The kernel's run, read: the result at the network of the staged edge features, the arguments unchanged. -/
theorem run : θ_run defs (onTc (τ := τ) (main (F := Ideal))) ⟨m, fun _ => 0, ρ⟩ fun r => ∀ c : Dev nD,
      r.2.mem ((c : Thread nD τ).loc main_v19)
        = net (E := 800000) (V m c main_v18) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.BlockValue

end
-- ==== Proof.RefValue.lean ====
/-
  The reference computes the edge network.

  After the edge features e = x[src] + x[dst] the reference is three host layers stacked: each a `dot_general`
  contracting the feature axis, the bias laid along the rows, and the leaky rectifier written as a compare with a
  splat zero, a product with the splat slope and a select. So its result is the network of e and the six parameter
  arrays, index by index.
-/
import proofs.«144251_j32504312496840_1_alg».proof.Proof.Gen.ReferenceIdeal.Read
import proofs.«144251_j32504312496840_1_alg».proof.Proof.Net

noncomputable section

namespace Cert.ReferenceIdeal.RefValue

open Cert.ReferenceIdeal Cert.ReferenceIdeal.Gen Cert.ReferenceIdeal.Read
open Idealize.ShloMosaic Cert.EdgeNet Cert.LibDenseLayer

/-- The reference's last stage, spelt as three host layers over its edge-feature stage: the printed operations are
    those of the layers, the printed dimension numbers the plain ones. -/
theorem layers_eq (x0 : FVec Ideal S50000x64 .f32) (x1 : IVec S2x800000 32) (x2 : FVec Ideal S64x128 .f32) (x3 : FVec Ideal S128 .f32)
    (x4 : FVec Ideal S128x128 .f32) (x5 : FVec Ideal S128 .f32) (x6 : FVec Ideal S128x64 .f32) (x7 : FVec Ideal S64 .f32) :
    val_main_v45 (F := Ideal) x0 x1 x2 x3 x4 x5 x6 x7
      = hostDense slope none
          (hostDense slope none
            (hostDense slope none (val_main_v18 (F := Ideal) x0 x1) x2 x3 bcast_S128_S1x128_1 bcast_S1x128_S800000x128_0_1 bcast_S_S800000x128)
            x4 x5 bcast_S128_S1x128_1 bcast_S1x128_S800000x128_0_1 bcast_S_S800000x128)
          x6 x7 bcast_S64_S1x64_1 bcast_S1x64_S800000x64_0_1 bcast_S_S800000x64 := rfl

/-- The reference's result is the network of its edge features and the parameters. -/
theorem ref_eq (x0 : FVec Ideal S50000x64 .f32) (x1 : IVec S2x800000 32) (x2 : FVec Ideal S64x128 .f32) (x3 : FVec Ideal S128 .f32)
    (x4 : FVec Ideal S128x128 .f32) (x5 : FVec Ideal S128 .f32) (x6 : FVec Ideal S128x64 .f32) (x7 : FVec Ideal S64 .f32) :
    val_main_v45 (F := Ideal) x0 x1 x2 x3 x4 x5 x6 x7 = net (E := 800000) (val_main_v18 (F := Ideal) x0 x1) x2 x3 x4 x5 x6 x7 :=
  (layers_eq x0 x1 x2 x3 x4 x5 x6 x7).trans (host3_eq _ x2 x3 x4 x5 x6 x7 _ _ _ _ _ _)

end Cert.ReferenceIdeal.RefValue

end
-- ==== Proof.Edges.lean ====
/-
  Both programs build the edge features by the same host operations.

  The kernel's program computes e = x[src] + x[dst] on the host before its one region (the two index rows sliced
  out, a negative index wrapped by the table's height, two gathers, a sum), and the reference begins with the same
  operations with the same literals. So the array the kernel's first window stages is the reference's edge-feature
  stage of the same arguments.
-/
import proofs.«144251_j32504312496840_1_alg».proof.Proof.Gen.KernelIdeal.Frame
import proofs.«144251_j32504312496840_1_alg».proof.Proof.Gen.ReferenceIdeal.Read
import Idealize.ShloMosaic.Lib.StableHlo.Run

noncomputable section

namespace Cert.Edges

open Idealize.ShloMosaic Idealize.ShloMosaic.TcCoe Idealize.SL.Sem Idealize.ShloMosaic.StableHlo

set_option maxRecDepth 8192 in
set_option maxHeartbeats 2000000 in
/-- What the region finds in the array of its first window is the reference's edge-feature stage of the launch
    contents of the node features and the edge index. -/
theorem staged_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v18 : FVec Ideal Cert.KernelIdeal.S800000x64 .f32)
      = Cert.ReferenceIdeal.Read.val_main_v18 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

end Cert.Edges

end
-- ==== Proof.lean ====
/-
  Edge features through a three-layer network: the kernel against its reference, over the extended reals.

  Both programs form the edge features e = x[src] + x[dst] by the same host operations (a negative index wrapped
  by the table's height, two row gathers, a sum). The reference then applies three dense layers
      h ↦ leaky (h · W + b),   leaky z = z if 0 ≤ z else 0.05 · z,      64 → 128 → 128 → 64,
  to all 800000 rows at once; the kernel applies the same three layers to 4000 rows at a time in one region of 200
  grid points, narrowing the operands of each product to bf16 first. At the extended reals the narrowing is the
  identity and a matrix product is the same finite sum however it is tiled, and a layer's row depends on the
  previous layer's same row only: so block t of the kernel's result is block t of the one network of e, the 200
  blocks cover the result, and the two results are equal entry by entry. No law of the reals beyond the shape of
  the sums is used, so the finiteness of the inputs is never opened.

  The three frames are the generated ones (the reference's is its generated run with the result dropped); the
  idealization rewrote nothing, so `preserves` is trivial.
-/
import proofs.«144251_j32504312496840_1_alg».proof.Defs
import proofs.«144251_j32504312496840_1_alg».proof.Proof.Gen.Kernel
import proofs.«144251_j32504312496840_1_alg».proof.Proof.Gen.Kernel.Skeleton
import proofs.«144251_j32504312496840_1_alg».proof.Proof.Gen.Kernel.Launch
import proofs.«144251_j32504312496840_1_alg».proof.Proof.Gen.Kernel.Points
import proofs.«144251_j32504312496840_1_alg».proof.Proof.Gen.Kernel.Frame
import proofs.«144251_j32504312496840_1_alg».proof.Proof.Gen.KernelIdeal
import proofs.«144251_j32504312496840_1_alg».proof.Proof.Gen.KernelIdeal.Skeleton
import proofs.«144251_j32504312496840_1_alg».proof.Proof.Gen.KernelIdeal.Launch
import proofs.«144251_j32504312496840_1_alg».proof.Proof.Gen.KernelIdeal.Points
import proofs.«144251_j32504312496840_1_alg».proof.Proof.Gen.KernelIdeal.Frame
import proofs.«144251_j32504312496840_1_alg».proof.Proof.Gen.ReferenceIdeal
import proofs.«144251_j32504312496840_1_alg».proof.Proof.Gen.Pre_finite_inputs
import proofs.«144251_j32504312496840_1_alg».proof.Proof.Gen.KernelIdeal.Value
import proofs.«144251_j32504312496840_1_alg».proof.Proof.Gen.ReferenceIdeal.Run
import proofs.«144251_j32504312496840_1_alg».proof.Proof.Gen.ReferenceIdeal.Read
import proofs.«144251_j32504312496840_1_alg».proof.Proof.KernelValue
import proofs.«144251_j32504312496840_1_alg».proof.Proof.RefValue
import proofs.«144251_j32504312496840_1_alg».proof.Proof.Edges
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the edge features of the shared arguments: the kernel's result array block by
    block, the reference's last stage as three host layers, their edge features one term. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v45_eq, Cert.ReferenceIdeal.RefValue.ref_eq, Cert.Edges.staged_eq m c,
    a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
